-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 92
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x100000, .i32⟩
  | .hbm, ⟨8, _⟩ => ⟨S1x1x1x100000, .i32⟩
  | .hbm, ⟨9, _⟩ => ⟨S2x1x1x100000, .i32⟩
  | .hbm, ⟨10, _⟩ => ⟨S2x100000, .i32⟩
  | .hbm, ⟨11, _⟩ => ⟨S2x1700000, .i32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x100000, .i32⟩
  | .hbm, ⟨8, _⟩ => ⟨S1x1x1x100000, .i32⟩
  | .hbm, ⟨9, _⟩ => ⟨S2x1x1x100000, .i32⟩
  | .hbm, ⟨10, _⟩ => ⟨S2x100000, .i32⟩
  | .hbm, ⟨11, _⟩ => ⟨S2x1700000, .i32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KStages.lean ====
/-
  The graph-convolution stages that surround the two dense products, as functions of the arrays they read.

  An edge list of 1600000 (source, target) pairs gets one self loop per node appended (1700000 pairs). A node's degree
  is the number of pairs whose target it is; its weight is degree^(-1/2) where the degree is positive and 0 elsewhere;
  an edge's coefficient is the product of its two endpoints' weights. A negative endpoint index counts from the end
  (100000 is added to it) before a row is gathered. One convolution gathers the source rows of a feature matrix, scales
  each by its edge's coefficient, adds the scaled rows into their targets' rows starting from zero, and adds a bias row
  to every node. The first layer ends with a maximum against zero.
-/
import proofs.«172964_j75969381531758_1_alg».proof.Proof.Gen.KernelIdeal

noncomputable section

namespace Cert.KernelIdeal.Stage

open Cert.KernelIdeal Cert.KernelIdeal.Gen Idealize.ShloMosaic Idealize.SL.Sem

variable {F : FTy → Type} [FloatOps F]

/-- The edge list with the self loops (node n to node n, for every n) appended. -/
def edges (ei : (⟨S2x1600000, .i32⟩ : BufTy).Contents (Elt F)) : (⟨S2x1700000, .i32⟩ : BufTy).Contents (Elt F) :=
  concatenate S2x1700000 1 [⟨S2x1600000, ei⟩, ⟨S2x100000, (shapeCast _ (broadcastInDim S2x1x1x100000 ![0, 1, 2, 3] bcast_S1x1x1x100000_S2x1x1x100000_0_1_2_3 (shapeCast _ (broadcastInDim S1x100000 ![1] bcast_S100000_S1x100000_1 (iotaInDim S100000 32 0)) shapeCasts_S1x100000_S1x1x1x100000)) shapeCasts_S2x1x1x100000_S2x100000)⟩] concatenates_S2x1600000_S2x100000_S2x1700000_d1

/-- Every edge's source node. -/
def srcs (ei : (⟨S2x1600000, .i32⟩ : BufTy).Contents (Elt F)) : (⟨S1700000, .i32⟩ : BufTy).Contents (Elt F) :=
  shapeCast _ (extractStridedSlice S1x1700000 ![0, 0] (edges (F := F) ei) slices_S2x1700000_S1x1700000_0_0) shapeCasts_S1x1700000_S1700000

/-- Every edge's target node. -/
def dsts (ei : (⟨S2x1600000, .i32⟩ : BufTy).Contents (Elt F)) : (⟨S1700000, .i32⟩ : BufTy).Contents (Elt F) :=
  shapeCast _ (extractStridedSlice S1x1700000 ![1, 0] (edges (F := F) ei) slices_S2x1700000_S1x1700000_1_0) shapeCasts_S1x1700000_S1700000

/-- Node indices made ready for a gather: a negative one has 100000 added; then one index per row. -/
def wrap (r : (⟨S1700000, .i32⟩ : BufTy).Contents (Elt F)) : (⟨S1700000x1, .i32⟩ : BufTy).Contents (Elt F) :=
  broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)

/-- A node's degree: one added per edge into it, from zero. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- Where a degree is positive. -/
def degPos (d : (⟨S1700000, .i32⟩ : BufTy).Contents (Elt F)) : (⟨S100000, .i1⟩ : BufTy).Contents (Elt F) :=
  cmpf (F := F) .ogt (deg (F := F) d) (broadcastInDim S100000 ![] bcast_S_S100000 (constant S_ .f32 0x00000000#32))

/-- The inverse square root of every degree. -/
def degRsqrt (d : (⟨S1700000, .i32⟩ : BufTy).Contents (Elt F)) : (⟨S100000, .f32⟩ : BufTy).Contents (Elt F) :=
  Host.rsqrt (deg (F := F) d)

/-- A node's weight: the inverse square root of its degree where that is positive, the given scalar elsewhere. -/
def weight (pos : (⟨S100000, .i1⟩ : BufTy).Contents (Elt F)) (rs : (⟨S100000, .f32⟩ : BufTy).Contents (Elt F))
    (z : (⟨S_, .f32⟩ : BufTy).Contents (Elt F)) : (⟨S100000, .f32⟩ : BufTy).Contents (Elt F) :=
  select pos rs (broadcastInDim S100000 ![] bcast_S_S100000 (id z))

/-- An edge's coefficient: the product of its source's and its target's weights. -/
def coef (w : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 w (wrap (F := F) s)) (Host.gather gather_S100000_S1700000x1_S1700000_n_0_n_n_0_1_1 w (wrap (F := F) d))

/-- The coefficients of all edges, from the edge list. -/
def norm (ei : (⟨S2x1600000, .i32⟩ : BufTy).Contents (Elt F)) : (⟨S1700000, .f32⟩ : BufTy).Contents (Elt F) :=
  coef (weight (degPos (F := F) (dsts (F := F) ei)) (degRsqrt (dsts (F := F) ei)) (constant S_ .f32 0x00000000#32)) (srcs (F := F) ei) (dsts (F := F) ei)

/-- One convolution over 64 features: gather the sources' rows, scale by the coefficients, add into the targets' rows
    from zero, add the bias to every row. -/
def conv64 (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) :
    (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrap (F := F) s)) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- The maximum with zero, entry by entry. -/
def relu64 (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The same convolution over 32 features. -/
def conv32 (h : (⟨S100000x32, .f32⟩ : BufTy).Contents (Elt F)) (s d : (⟨S1700000, .i32⟩ : BufTy).Contents (Elt F))
    (n : (⟨S1700000, .f32⟩ : BufTy).Contents (Elt F)) (b : (⟨S32, .f32⟩ : BufTy).Contents (Elt F)) :
    (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 d) (mulf (Host.gather gather_S100000x32_S1700000x1_S1700000x32_1_0_n_n_0_1_132 h (wrap (F := F) s)) (broadcastInDim S1700000x32 ![0, 1] bcast_S1700000x1_S1700000x32_0_1 (broadcastInDim S1700000x1 ![0] bcast_S1700000_S1700000x1_0 n)))) (broadcastInDim S100000x32 ![0, 1] bcast_S1x32_S100000x32_0_1 (broadcastInDim S1x32 ![1] bcast_S32_S1x32_1 b))

end Cert.KernelIdeal.Stage

end
-- ==== Proof.KHost.lean ====
/-
  Each stretch of host operations of the program, read at the buffers later stretches use: the value a
  stretch leaves in a buffer is the stage function of the values it found in the buffers it reads, and a buffer no
  operation of the stretch writes keeps its contents.
-/
import proofs.«172964_j75969381531758_1_alg».proof.Proof.Gen.KernelIdeal.Launch
import proofs.«172964_j75969381531758_1_alg».proof.Proof.KStages
import Idealize.ShloMosaic.Lib.StableHlo.Run

set_option maxRecDepth 16384

noncomputable section

namespace Cert.KernelIdeal.Stage

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

/-- A buffer that no operation of a literal list writes holds after the list what it held before
    (the list is named so that its operations can be looked at one by one). -/
macro "kept " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first stretch: the edge list with self loops, the degrees -/

theorem ops0_srcs : after (hostOps0 (F := F)) W (Proc.devRef .tc main_v7) = srcs (W (Proc.devRef .tc main_arg1)) := by
  dsimp only [hostOps0]; after_results; rfl

theorem ops0_dsts : after (hostOps0 (F := F)) W (Proc.devRef .tc main_v9) = dsts (W (Proc.devRef .tc main_arg1)) := by
  dsimp only [hostOps0]; after_results; rfl

theorem ops0_degPos : after (hostOps0 (F := F)) W (Proc.devRef .tc main_v15) = degPos (dsts (W (Proc.devRef .tc main_arg1))) := by
  dsimp only [hostOps0]; after_results; rfl

theorem ops0_degRsqrt : after (hostOps0 (F := F)) W (Proc.devRef .tc main_v16) = degRsqrt (dsts (W (Proc.devRef .tc main_arg1))) := by
  dsimp only [hostOps0]; after_results; rfl

theorem ops0_zero : after (hostOps0 (F := F)) W (Proc.devRef .tc main_cst_2) = constant S_ .f32 0x00000000#32 := by
  dsimp only [hostOps0]; after_results

/-! ## The select of the weights -/

theorem ops0_1_weight : after (hostOps0_1 (F := F)) W (Proc.devRef .tc main_v17)
    = weight (W (Proc.devRef .tc main_v15)) (W (Proc.devRef .tc main_v16)) (W (Proc.devRef .tc main_cst_2)) := by
  dsimp only [hostOps0_1]; after_results; rfl

/-! ## The edge coefficients -/

theorem ops0_2_coef : after (hostOps0_2 (F := F)) W (Proc.devRef .tc main_v32)
    = coef (W (Proc.devRef .tc main_v17)) (W (Proc.devRef .tc main_v7)) (W (Proc.devRef .tc main_v9)) := by
  dsimp only [hostOps0_2]; after_results_simp; rfl

/-! ## The first convolution and its maximum with zero -/

theorem ops1_conv : after (hostOps1 (F := F)) W (Proc.devRef .tc main_v49)
    = conv64 (W (Proc.devRef .tc main_v33)) (W (Proc.devRef .tc main_v7)) (W (Proc.devRef .tc main_v9))
        (W (Proc.devRef .tc main_v32)) (W (Proc.devRef .tc main_arg3)) := by
  dsimp only [hostOps1]; after_results_simp; rfl

theorem ops1_1_relu : after (hostOps1_1 (F := F)) W (Proc.devRef .tc main_v50) = relu64 (W (Proc.devRef .tc main_v49)) := by
  dsimp only [hostOps1_1]; after_results; rfl

/-! ## The second convolution -/

theorem ops2_conv : after (hostOps2 (F := F)) W (Proc.devRef .tc main_v67)
    = conv32 (W (Proc.devRef .tc main_v51)) (W (Proc.devRef .tc main_v7)) (W (Proc.devRef .tc main_v9))
        (W (Proc.devRef .tc main_v32)) (W (Proc.devRef .tc main_arg5)) := by
  dsimp only [hostOps2]; after_results_simp; rfl

end Cert.KernelIdeal.Stage

end
-- ==== Proof.Layer1Product.lean ====
/-
  The first dense layer's product. The kernel walks the 100000 rows of the node features in ten blocks of 10000 rows;
  at each block it multiplies the block (rounded to the narrow format, which changes nothing over the extended reals) by
  the whole 128 × 64 weight matrix into a zero accumulator and writes the 10000 × 64 result back as the same rows of
  the output. Entry (e, q) of a block's product is ∑ₖ block(e, k) · W(k, q), and row e of block t is row t · 10000 + e of
  the features, so the output array ends as the whole product of the features by the weights, entry by entry.
-/
import proofs.«172964_j75969381531758_1_alg».proof.Proof.Gen.KernelIdeal.Frame
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The left operand and the weights as the region finds them, at their literal shapes. -/
abbrev lhsArr (c : Dev nD) : FVec Ideal S100000x128 .f32 := V c main_arg0
abbrev rhsArr (c : Dev nD) : FVec Ideal S128x64 .f32 := V c main_arg2

theorem hz : (![0, 0] : Fin 2 → Nat) = fun _ => 0 := funext fun a => by fin_cases a <;> rfl

/-- The whole product: row r, column q is the sum over k of X(r, k) · W(k, q). -/
abbrev prod (X : FVec Ideal S100000x128 .f32) (W : FVec Ideal S128x64 .f32) : FVec Ideal S100000x64 .f32 :=
  Host.dotGeneral (DotDims.plain 100000 128 64) none X W

/-- One block's product into the zero matrix, at row e and column q of the block. -/
theorem pay_apply (x0 : Vec Ideal S10000x128 .f32) (x1 : Vec Ideal S128x64 .f32) (e : Fin 10000) (q : Fin 64) :
    k0_pay1 (F := Ideal) x0 x1 (ix2 e q) = ∑ k : Fin 128, x0 (ix2 e k) * x1 (ix2 k q) := by
  unfold k0_pay1
  refine (congrFun (matmul_zero_eq_dotGeneral (DotDims.plain 10000 128 64) none
    (truncf (F := Ideal) .bf16 x0 bitsLt_bf16_f32) (truncf (F := Ideal) .bf16 x1 bitsLt_bf16_f32)) (ix2 e q)).trans ?_
  exact StackMember.dotGeneral_plain_apply none _ _ e q

/-- The index maps over the grid: the row-block index of the left operand is the output's, every other block index is
    zero, and the output's row-block index stays below ten. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ (b : Fin 10), ∃ t : Fin cfg0.N, win0_2.index t = ![b.val, 0] :=
  (by decide +kernel : ∀ (b : Fin 10), ∃ t : Fin grid0.N, win0_2.index t = ![b.val, 0])

theorem flushed_eq (c : Dev nD) (t : Fin cfg0.N) :
    (dat0 V c).flushed 2 t = ((cfg0.win 2).blk t).view.read (Elt Ideal) (prod (lhsArr V c) (rhsArr V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  obtain ⟨e, q, rfl⟩ : ∃ (e : Fin 10000) (q : Fin 64), j = ix2 e q := ⟨j 0, j 1, eq_ix2 j⟩
  show k0_pay1 (F := Ideal) (iblk0 V c 0 t) (iblk0 V c 1 t) (ix2 e q)
      = prod (lhsArr V c) (rhsArr V c) (((cfg0.win 2).blk t).view.emb (ix2 e q))
  have hr : win0_2.index t (0 : Fin 2) * 10000 + e.val < 100000 := by have := e.isLt; omega
  have hout : ((cfg0.win 2).blk t).view.emb (ix2 e q) = ix2 (⟨win0_2.index t (0 : Fin 2) * 10000 + e.val, hr⟩ : Fin 100000) q := by
    funext a; apply Fin.ext
    match a with
    | ⟨0, _⟩ => show win0_2.index t (0 : Fin 2) * 10000 + 1 * e.val = win0_2.index t (0 : Fin 2) * 10000 + e.val; omega
    | ⟨1, _⟩ => show win0_2.index t (1 : Fin 2) * 64 + 1 * q.val = q.val; omega
  rw [hout]
  refine (pay_apply (iblk0 V c 0 t) (iblk0 V c 1 t) e q).trans ?_
  refine Eq.trans ?_ (StackMember.dotGeneral_plain_apply none (lhsArr V c) (rhsArr V c) _ q).symm
  refine Finset.sum_congr rfl fun k _ => ?_
  show lhsArr V c (((cfg0.win 0).blk t).view.emb (ix2 e k)) * rhsArr V c (((cfg0.win 1).blk t).view.emb (ix2 k q))
      = lhsArr V c (ix2 (⟨win0_2.index t (0 : Fin 2) * 10000 + e.val, hr⟩ : Fin 100000) k) * rhsArr V c (ix2 k q)
  have h0 : ((cfg0.win 0).blk t).view.emb (ix2 e k) = ix2 (⟨win0_2.index t (0 : Fin 2) * 10000 + e.val, hr⟩ : Fin 100000) k := by
    funext a; apply Fin.ext
    match a with
    | ⟨0, _⟩ => show win0_0.index t (0 : Fin 2) * 10000 + 1 * e.val = win0_2.index t (0 : Fin 2) * 10000 + e.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  rw [h0, h1]

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Row r lies in the block of the point whose row-block index is r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the output array holds the whole product of the two operand arrays as the region found them. -/
theorem final (c : Dev nD) : (dat0 V c).arrAt 2 cfg0.N = prod (lhsArr V c) (rhsArr V c) :=
  (dat0 V c).arrAt_eq_of_cover 2 (prod (lhsArr V c) (rhsArr V c)) (fun t _ => flushed_eq V c t) cover

end Cert.KernelIdeal.Layer1

end
-- ==== Proof.Layer2Product.lean ====
/-
  The second dense layer's product, block by block as the first: ten blocks of 10000 rows of the hidden features, each
  multiplied by the whole 64 × 32 weight matrix into a zero accumulator and written back as the same rows of the
  output (the body first casts the block to its own shape, which changes nothing). The output array ends as the whole
  product of the hidden features by the weights.
-/
import proofs.«172964_j75969381531758_1_alg».proof.Proof.Gen.KernelIdeal.Frame
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The left operand and the weights as the region finds them, at their literal shapes. -/
abbrev lhsArr (c : Dev nD) : FVec Ideal S100000x64 .f32 := V c main_v50
abbrev rhsArr (c : Dev nD) : FVec Ideal S64x32 .f32 := V c main_arg4

theorem hz : (![0, 0] : Fin 2 → Nat) = fun _ => 0 := funext fun a => by fin_cases a <;> rfl

/-- The whole product: row r, column q is the sum over k of X(r, k) · W(k, q). -/
abbrev prod (X : FVec Ideal S100000x64 .f32) (W : FVec Ideal S64x32 .f32) : FVec Ideal S100000x32 .f32 :=
  Host.dotGeneral (DotDims.plain 100000 64 32) none X W

/-- One block's product into the zero matrix, at row e and column q of the block. -/
theorem pay_apply (x0 : Vec Ideal S10000x64 .f32) (x1 : Vec Ideal S64x32 .f32) (e : Fin 10000) (q : Fin 32) :
    k1_pay1 (F := Ideal) x0 x1 (ix2 e q) = ∑ k : Fin 64, x0 (ix2 e k) * x1 (ix2 k q) := by
  unfold k1_pay1
  refine (congrFun (matmul_zero_eq_dotGeneral (DotDims.plain 10000 64 32) none
    (truncf (F := Ideal) .bf16 (shapeCast S10000x64 x0 shapeCasts_S10000x64_S10000x64) bitsLt_bf16_f32)
    (truncf (F := Ideal) .bf16 x1 bitsLt_bf16_f32)) (ix2 e q)).trans ?_
  refine (StackMember.dotGeneral_plain_apply none _ _ e q).trans ?_
  refine Finset.sum_congr rfl fun k _ => ?_
  exact congrArg (· * x1 (ix2 k q)) (congrFun (shapeCast_self x0 shapeCasts_S10000x64_S10000x64) (ix2 e k))

/-- The index maps over the grid: the row-block index of the left operand is the output's, every other block index is
    zero, and the output's row-block index stays below ten. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem idx_onto : ∀ (b : Fin 10), ∃ t : Fin cfg1.N, win1_2.index t = ![b.val, 0] :=
  (by decide +kernel : ∀ (b : Fin 10), ∃ t : Fin grid1.N, win1_2.index t = ![b.val, 0])

theorem flushed_eq (c : Dev nD) (t : Fin cfg1.N) :
    (dat1 V c).flushed 2 t = ((cfg1.win 2).blk t).view.read (Elt Ideal) (prod (lhsArr V c) (rhsArr V c)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  obtain ⟨e0, e1, e2, e3, e4, e5⟩ := idx_facts t
  funext j
  obtain ⟨e, q, rfl⟩ : ∃ (e : Fin 10000) (q : Fin 32), j = ix2 e q := ⟨j 0, j 1, eq_ix2 j⟩
  show k1_pay1 (F := Ideal) (iblk1 V c 0 t) (iblk1 V c 1 t) (ix2 e q)
      = prod (lhsArr V c) (rhsArr V c) (((cfg1.win 2).blk t).view.emb (ix2 e q))
  have hr : win1_2.index t (0 : Fin 2) * 10000 + e.val < 100000 := by have := e.isLt; omega
  have hout : ((cfg1.win 2).blk t).view.emb (ix2 e q) = ix2 (⟨win1_2.index t (0 : Fin 2) * 10000 + e.val, hr⟩ : Fin 100000) q := by
    funext a; apply Fin.ext
    match a with
    | ⟨0, _⟩ => show win1_2.index t (0 : Fin 2) * 10000 + 1 * e.val = win1_2.index t (0 : Fin 2) * 10000 + e.val; omega
    | ⟨1, _⟩ => show win1_2.index t (1 : Fin 2) * 32 + 1 * q.val = q.val; omega
  rw [hout]
  refine (pay_apply (iblk1 V c 0 t) (iblk1 V c 1 t) e q).trans ?_
  refine Eq.trans ?_ (StackMember.dotGeneral_plain_apply none (lhsArr V c) (rhsArr V c) _ q).symm
  refine Finset.sum_congr rfl fun k _ => ?_
  show lhsArr V c (((cfg1.win 0).blk t).view.emb (ix2 e k)) * rhsArr V c (((cfg1.win 1).blk t).view.emb (ix2 k q))
      = lhsArr V c (ix2 (⟨win1_2.index t (0 : Fin 2) * 10000 + e.val, hr⟩ : Fin 100000) k) * rhsArr V c (ix2 k q)
  have h0 : ((cfg1.win 0).blk t).view.emb (ix2 e k) = ix2 (⟨win1_2.index t (0 : Fin 2) * 10000 + e.val, hr⟩ : Fin 100000) k := by
    funext a; apply Fin.ext
    match a with
    | ⟨0, _⟩ => show win1_0.index t (0 : Fin 2) * 10000 + 1 * e.val = win1_2.index t (0 : Fin 2) * 10000 + e.val; omega
    | ⟨1, _⟩ => show win1_0.index t (1 : Fin 2) * 64 + 1 * k.val = k.val; omega
  have h1 : ((cfg1.win 1).blk t).view.emb (ix2 k q) = ix2 k q := by
    funext a; apply Fin.ext
    match a with
    | ⟨0, _⟩ => show win1_1.index t (0 : Fin 2) * 64 + 1 * k.val = k.val; omega
    | ⟨1, _⟩ => show win1_1.index t (1 : Fin 2) * 32 + 1 * q.val = q.val; omega
  rw [h0, h1]

/-- An index of the array is in point t's block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v51).slice (win1_2.rect t)).set ↔ _
  rw [View.set_slice_whole, Rect.mem_set_unit]
  exact Iff.rfl

/-- Row r lies in the block of the point whose row-block index is r / 10000. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- After the region the output array holds the whole product of the two operand arrays as the region found them. -/
theorem final (c : Dev nD) : (dat1 V c).arrAt 2 cfg1.N = prod (lhsArr V c) (rhsArr V c) :=
  (dat1 V c).arrAt_eq_of_cover 2 (prod (lhsArr V c) (rhsArr V c)) (fun t _ => flushed_eq V c t) cover

end Cert.KernelIdeal.Layer2

end
-- ==== Proof.KValue.lean ====
/-
  The value the kernel's program leaves in its result buffer, as one function of its six argument arrays: the buffer
  contents are followed from the launch through the three stretches of host operations before the first product, the
  first product, the convolution and the maximum between the products, the second product, and the last convolution.
  At each boundary only the buffers that something later reads are named: the edge sources, targets and coefficients,
  the running features, and the arguments still to be used.
-/
import proofs.«172964_j75969381531758_1_alg».proof.Proof.Gen.KernelIdeal.Frame
import proofs.«172964_j75969381531758_1_alg».proof.Proof.KHost
import proofs.«172964_j75969381531758_1_alg».proof.Proof.Layer1Product
import proofs.«172964_j75969381531758_1_alg».proof.Proof.Layer2Product

set_option maxRecDepth 16384

noncomputable section

namespace Cert.KernelIdeal.Out

open Cert.KernelIdeal Cert.KernelIdeal.Gen Cert.KernelIdeal.Stage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays at launch, at their literal types. -/
abbrev feat : (⟨S100000x128, .f32⟩ : BufTy).Contents (Elt Ideal) := m ((c : Thread nD τ).loc main_arg0)
abbrev edgeIx : (⟨S2x1600000, .i32⟩ : BufTy).Contents (Elt Ideal) := m ((c : Thread nD τ).loc main_arg1)
abbrev wt1 : (⟨S128x64, .f32⟩ : BufTy).Contents (Elt Ideal) := m ((c : Thread nD τ).loc main_arg2)
abbrev bias1 : (⟨S64, .f32⟩ : BufTy).Contents (Elt Ideal) := m ((c : Thread nD τ).loc main_arg3)
abbrev wt2 : (⟨S64x32, .f32⟩ : BufTy).Contents (Elt Ideal) := m ((c : Thread nD τ).loc main_arg4)
abbrev bias2 : (⟨S32, .f32⟩ : BufTy).Contents (Elt Ideal) := m ((c : Thread nD τ).loc main_arg5)

/-! ## Before the first product -/

theorem at3_srcs : W3 m ρ c (Proc.devRef .tc main_v7) = srcs (edgeIx m c) :=
  calc W3 m ρ c (Proc.devRef .tc main_v7)
    _ = W2 m ρ c (Proc.devRef .tc main_v7) := by kept hostOps0_2
    _ = W1 m ρ c (Proc.devRef .tc main_v7) := by kept hostOps0_1
    _ = srcs (edgeIx m c) := ops0_srcs (W0 m ρ c)

theorem at3_dsts : W3 m ρ c (Proc.devRef .tc main_v9) = dsts (edgeIx m c) :=
  calc W3 m ρ c (Proc.devRef .tc main_v9)
    _ = W2 m ρ c (Proc.devRef .tc main_v9) := by kept hostOps0_2
    _ = W1 m ρ c (Proc.devRef .tc main_v9) := by kept hostOps0_1
    _ = dsts (edgeIx m c) := ops0_dsts (W0 m ρ c)

theorem at2_weight : W2 m ρ c (Proc.devRef .tc main_v17)
    = weight (degPos (dsts (edgeIx m c))) (degRsqrt (dsts (edgeIx m c))) (constant (F := Ideal) S_ .f32 0x00000000#32) := by
  refine (ops0_1_weight (W1 m ρ c)).trans ?_
  rw [show W1 m ρ c (Proc.devRef .tc main_v15) = degPos (dsts (edgeIx m c)) from ops0_degPos (W0 m ρ c),
    show W1 m ρ c (Proc.devRef .tc main_v16) = degRsqrt (dsts (edgeIx m c)) from ops0_degRsqrt (W0 m ρ c),
    show W1 m ρ c (Proc.devRef .tc main_cst_2) = constant (F := Ideal) S_ .f32 0x00000000#32 from ops0_zero (W0 m ρ c)]

theorem at3_norm : W3 m ρ c (Proc.devRef .tc main_v32) = norm (edgeIx m c) := by
  refine (ops0_2_coef (W2 m ρ c)).trans ?_
  rw [at2_weight m ρ c,
    show W2 m ρ c (Proc.devRef .tc main_v7) = srcs (edgeIx m c) from
      (show W2 m ρ c (Proc.devRef .tc main_v7) = W1 m ρ c (Proc.devRef .tc main_v7) by kept hostOps0_1).trans (ops0_srcs (W0 m ρ c)),
    show W2 m ρ c (Proc.devRef .tc main_v9) = dsts (edgeIx m c) from
      (show W2 m ρ c (Proc.devRef .tc main_v9) = W1 m ρ c (Proc.devRef .tc main_v9) by kept hostOps0_1).trans (ops0_dsts (W0 m ρ c))]
  rfl

/-- An argument no stretch before the first product writes. -/
theorem at3_arg (r : Ref sig .tc) (h0 : StableHlo.after hostOps0 (W0 m ρ c) (Proc.devRef .tc r) = W0 m ρ c (Proc.devRef .tc r))
    (h1 : StableHlo.after hostOps0_1 (W1 m ρ c) (Proc.devRef .tc r) = W1 m ρ c (Proc.devRef .tc r))
    (h2 : StableHlo.after hostOps0_2 (W2 m ρ c) (Proc.devRef .tc r) = W2 m ρ c (Proc.devRef .tc r)) :
    W3 m ρ c (Proc.devRef .tc r) = W0 m ρ c (Proc.devRef .tc r) := h2.trans (h1.trans h0)

theorem at3_feat : W3 m ρ c (Proc.devRef .tc main_arg0) = feat m c :=
  at3_arg m ρ c main_arg0 (by kept hostOps0) (by kept hostOps0_1) (by kept hostOps0_2)
theorem at3_wt1 : W3 m ρ c (Proc.devRef .tc main_arg2) = wt1 m c :=
  at3_arg m ρ c main_arg2 (by kept hostOps0) (by kept hostOps0_1) (by kept hostOps0_2)
theorem at3_bias1 : W3 m ρ c (Proc.devRef .tc main_arg3) = bias1 m c :=
  at3_arg m ρ c main_arg3 (by kept hostOps0) (by kept hostOps0_1) (by kept hostOps0_2)
theorem at3_wt2 : W3 m ρ c (Proc.devRef .tc main_arg4) = wt2 m c :=
  at3_arg m ρ c main_arg4 (by kept hostOps0) (by kept hostOps0_1) (by kept hostOps0_2)
theorem at3_bias2 : W3 m ρ c (Proc.devRef .tc main_arg5) = bias2 m c :=
  at3_arg m ρ c main_arg5 (by kept hostOps0) (by kept hostOps0_1) (by kept hostOps0_2)

/-! ## After the first product -/

theorem at4_prod : W4 m ρ c (Proc.devRef .tc main_v33) = Layer1.prod (feat m c) (wt1 m c) := by
  refine (W4_arr m ρ c 2).trans ((Layer1.final (V3 m ρ) c).trans ?_)
  show Layer1.prod (W3 m ρ c (Proc.devRef .tc main_arg0)) (W3 m ρ c (Proc.devRef .tc main_arg2)) = _
  rw [at3_feat m ρ c, at3_wt1 m ρ c]

theorem at4_srcs : W4 m ρ c (Proc.devRef .tc main_v7) = srcs (edgeIx m c) :=
  (W4_of_ne m ρ c main_v7 (by decide)).trans (at3_srcs m ρ c)
theorem at4_dsts : W4 m ρ c (Proc.devRef .tc main_v9) = dsts (edgeIx m c) :=
  (W4_of_ne m ρ c main_v9 (by decide)).trans (at3_dsts m ρ c)
theorem at4_norm : W4 m ρ c (Proc.devRef .tc main_v32) = norm (edgeIx m c) :=
  (W4_of_ne m ρ c main_v32 (by decide)).trans (at3_norm m ρ c)
theorem at4_bias1 : W4 m ρ c (Proc.devRef .tc main_arg3) = bias1 m c :=
  (W4_of_ne m ρ c main_arg3 (by decide)).trans (at3_bias1 m ρ c)
theorem at4_wt2 : W4 m ρ c (Proc.devRef .tc main_arg4) = wt2 m c :=
  (W4_of_ne m ρ c main_arg4 (by decide)).trans (at3_wt2 m ρ c)
theorem at4_bias2 : W4 m ρ c (Proc.devRef .tc main_arg5) = bias2 m c :=
  (W4_of_ne m ρ c main_arg5 (by decide)).trans (at3_bias2 m ρ c)

/-! ## Before the second product -/

/-- The hidden features: the first convolution of the first product, then the maximum with zero. -/
def hidden : (⟨S100000x64, .f32⟩ : BufTy).Contents (Elt Ideal) :=
  relu64 (conv64 (Layer1.prod (feat m c) (wt1 m c)) (srcs (edgeIx m c)) (dsts (edgeIx m c)) (norm (edgeIx m c)) (bias1 m c))

theorem at6_hidden : W6 m ρ c (Proc.devRef .tc main_v50) = hidden m c := by
  refine (ops1_1_relu (W5 m ρ c)).trans ?_
  rw [show W5 m ρ c (Proc.devRef .tc main_v49) = _ from ops1_conv (W4 m ρ c),
    at4_prod m ρ c, at4_srcs m ρ c, at4_dsts m ρ c, at4_norm m ρ c, at4_bias1 m ρ c]
  rfl

/-- A buffer neither the convolution's nor the maximum's stretch writes. -/
theorem at6_keep (r : Ref sig .tc) (h1 : StableHlo.after hostOps1 (W4 m ρ c) (Proc.devRef .tc r) = W4 m ρ c (Proc.devRef .tc r))
    (h2 : StableHlo.after hostOps1_1 (W5 m ρ c) (Proc.devRef .tc r) = W5 m ρ c (Proc.devRef .tc r)) :
    W6 m ρ c (Proc.devRef .tc r) = W4 m ρ c (Proc.devRef .tc r) := h2.trans h1

theorem at6_srcs : W6 m ρ c (Proc.devRef .tc main_v7) = srcs (edgeIx m c) :=
  (at6_keep m ρ c main_v7 (by kept hostOps1) (by kept hostOps1_1)).trans (at4_srcs m ρ c)
theorem at6_dsts : W6 m ρ c (Proc.devRef .tc main_v9) = dsts (edgeIx m c) :=
  (at6_keep m ρ c main_v9 (by kept hostOps1) (by kept hostOps1_1)).trans (at4_dsts m ρ c)
theorem at6_norm : W6 m ρ c (Proc.devRef .tc main_v32) = norm (edgeIx m c) :=
  (at6_keep m ρ c main_v32 (by kept hostOps1) (by kept hostOps1_1)).trans (at4_norm m ρ c)
theorem at6_wt2 : W6 m ρ c (Proc.devRef .tc main_arg4) = wt2 m c :=
  (at6_keep m ρ c main_arg4 (by kept hostOps1) (by kept hostOps1_1)).trans (at4_wt2 m ρ c)
theorem at6_bias2 : W6 m ρ c (Proc.devRef .tc main_arg5) = bias2 m c :=
  (at6_keep m ρ c main_arg5 (by kept hostOps1) (by kept hostOps1_1)).trans (at4_bias2 m ρ c)

/-! ## After the second product, and the result -/

theorem at7_prod : W7 m ρ c (Proc.devRef .tc main_v51) = Layer2.prod (hidden m c) (wt2 m c) := by
  refine (W7_arr m ρ c 2).trans ((Layer2.final (V6 m ρ) c).trans ?_)
  show Layer2.prod (W6 m ρ c (Proc.devRef .tc main_v50)) (W6 m ρ c (Proc.devRef .tc main_arg4)) = _
  rw [at6_hidden m ρ c, at6_wt2 m ρ c]

/-- The whole network's result: the second convolution of the second product of the hidden features. -/
def result : (⟨S100000x32, .f32⟩ : BufTy).Contents (Elt Ideal) :=
  conv32 (Layer2.prod (hidden m c) (wt2 m c)) (srcs (edgeIx m c)) (dsts (edgeIx m c)) (norm (edgeIx m c)) (bias2 m c)

theorem at8_result : W8 m ρ c (Proc.devRef .tc main_v67) = result m c := by
  refine (ops2_conv (W7 m ρ c)).trans ?_
  rw [at7_prod m ρ c,
    (W7_of_ne m ρ c main_v7 (by decide)).trans (at6_srcs m ρ c),
    (W7_of_ne m ρ c main_v9 (by decide)).trans (at6_dsts m ρ c),
    (W7_of_ne m ρ c main_v32 (by decide)).trans (at6_norm m ρ c),
    (W7_of_ne m ρ c main_arg5 (by decide)).trans (at6_bias2 m ρ c)]
  rfl

end Cert.KernelIdeal.Out

end
-- ==== Proof.RParts.lean ====
/-
  The reference program's host operations other than its two matrix products, as six lists in program order: the
  same operations, on the same buffers, as the six stretches between which the kernel's program launches its products.
-/
import proofs.«172964_j75969381531758_1_alg».proof.Proof.Gen.ReferenceIdeal
import Idealize.ShloMosaic.Lib.StableHlo.Run

noncomputable section

namespace Cert.ReferenceIdeal.Gen

open Idealize.ShloMosaic Idealize.ShloMosaic.TcCoe Idealize.SL.Sem

variable {F : FTy → Type} [FloatOps F]

/-- 21 host operations of @main, in order. -/
abbrev hostOps0 : List (HloOp τ sig (Elt F)) :=
  [ StableHlo.nullary main_v0 (iotaInDim S100000 32 0),
    StableHlo.unary main_v0 main_v1 (broadcastInDim S1x100000 ![1] bcast_S100000_S1x100000_1 : (⟨S100000, .i32⟩ : BufTy).Contents (Elt F) → (⟨S1x100000, .i32⟩ : BufTy).Contents (Elt F)),
    StableHlo.reshape main_v1 main_v2 rfl shapeCasts_S1x100000_S1x1x1x100000,
    StableHlo.unary main_v2 main_v3 (broadcastInDim S2x1x1x100000 ![0, 1, 2, 3] bcast_S1x1x1x100000_S2x1x1x100000_0_1_2_3 : (⟨S1x1x1x100000, .i32⟩ : BufTy).Contents (Elt F) → (⟨S2x1x1x100000, .i32⟩ : BufTy).Contents (Elt F)),
    StableHlo.reshape main_v3 main_v4 rfl shapeCasts_S2x1x1x100000_S2x100000,
    StableHlo.binary main_arg1 main_v4 main_v5 ((fun a b => concatenate S2x1700000 1 [⟨S2x1600000, a⟩, ⟨S2x100000, b⟩] concatenates_S2x1600000_S2x100000_S2x1700000_d1) : (⟨S2x1600000, .i32⟩ : BufTy).Contents (Elt F) → (⟨S2x100000, .i32⟩ : BufTy).Contents (Elt F) → (⟨S2x1700000, .i32⟩ : BufTy).Contents (Elt F)),
    StableHlo.unary main_v5 main_v6 ((extractStridedSlice S1x1700000 ![0, 0] · slices_S2x1700000_S1x1700000_0_0) : (⟨S2x1700000, .i32⟩ : BufTy).Contents (Elt F) → (⟨S1x1700000, .i32⟩ : BufTy).Contents (Elt F)),
    StableHlo.reshape main_v6 main_v7 rfl shapeCasts_S1x1700000_S1700000,
    StableHlo.unary main_v5 main_v8 ((extractStridedSlice S1x1700000 ![1, 0] · slices_S2x1700000_S1x1700000_1_0) : (⟨S2x1700000, .i32⟩ : BufTy).Contents (Elt F) → (⟨S1x1700000, .i32⟩ : BufTy).Contents (Elt F)),
    StableHlo.reshape main_v8 main_v9 rfl shapeCasts_S1x1700000_S1700000,
    StableHlo.nullary main_cst (constant S_ .f32 0x3F800000#32),
    StableHlo.unary main_cst main_v10 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v11 (broadcastInDim S100000 ![] bcast_S_S100000 : (⟨S_, .f32⟩ : BufTy).Contents (Elt F) → (⟨S100000, .f32⟩ : BufTy).Contents (Elt F)),
    StableHlo.unary main_v9 main_v12 (broadcastInDim S1700000x1 ![0] bcast_S1700000_S1700000x1_0 : (⟨S1700000, .i32⟩ : BufTy).Contents (Elt F) → (⟨S1700000x1, .i32⟩ : BufTy).Contents (Elt F)),
    StableHlo.ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v14 (broadcastInDim S100000 ![] bcast_S_S100000 : (⟨S_, .f32⟩ : BufTy).Contents (Elt F) → (⟨S100000, .f32⟩ : BufTy).Contents (Elt F)),
    StableHlo.binary main_v13 main_v14 main_v15 (cmpf .ogt : (⟨S100000, .f32⟩ : BufTy).Contents (Elt F) → (⟨S100000, .f32⟩ : BufTy).Contents (Elt F) → (⟨S100000, .i1⟩ : BufTy).Contents (Elt F)),
    StableHlo.unary main_v13 main_v16 (Host.rsqrt : (⟨S100000, .f32⟩ : BufTy).Contents (Elt F) → (⟨S100000, .f32⟩ : BufTy).Contents (Elt F)),
    StableHlo.nullary main_cst_2 (constant S_ .f32 0x00000000#32) ]

/-- 3 host operations of @_where (main_call0), in order. -/
abbrev hostOps0_1 : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v15 : StableHlo.TRef sig ⟨S100000, .i1⟩) (.of main_v16 : StableHlo.TRef sig ⟨S100000, .f32⟩) (.of main_call0_v1 : StableHlo.TRef sig ⟨S100000, .f32⟩) (.of main_v17 : StableHlo.TRef sig ⟨S100000, .f32⟩) select ]

/-- 19 host operations of @main, in order. -/
abbrev hostOps0_2 : List (HloOp τ sig (Elt F)) :=
  [ StableHlo.nullary main_c (constantI S_ 32 0#32),
    StableHlo.unary main_c main_v18 (broadcastInDim S1700000 ![] bcast_S_S1700000 : (⟨S_, .i32⟩ : BufTy).Contents (Elt F) → (⟨S1700000, .i32⟩ : BufTy).Contents (Elt F)),
    StableHlo.binary main_v7 main_v18 main_v19 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v20 (broadcastInDim S1700000 ![] bcast_S_S1700000 : (⟨S_, .i32⟩ : BufTy).Contents (Elt F) → (⟨S1700000, .i32⟩ : BufTy).Contents (Elt F)),
    StableHlo.binary main_v7 main_v20 main_v21 (addi : (⟨S1700000, .i32⟩ : BufTy).Contents (Elt F) → (⟨S1700000, .i32⟩ : BufTy).Contents (Elt F) → (⟨S1700000, .i32⟩ : BufTy).Contents (Elt F)),
    StableHlo.ternary main_v19 main_v21 main_v7 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v22 main_v23 (broadcastInDim S1700000x1 ![0] bcast_S1700000_S1700000x1_0 : (⟨S1700000, .i32⟩ : BufTy).Contents (Elt F) → (⟨S1700000x1, .i32⟩ : BufTy).Contents (Elt F)),
    StableHlo.binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v25 (broadcastInDim S1700000 ![] bcast_S_S1700000 : (⟨S_, .i32⟩ : BufTy).Contents (Elt F) → (⟨S1700000, .i32⟩ : BufTy).Contents (Elt F)),
    StableHlo.binary main_v9 main_v25 main_v26 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v9 main_v27 main_v28 (addi : (⟨S1700000, .i32⟩ : BufTy).Contents (Elt F) → (⟨S1700000, .i32⟩ : BufTy).Contents (Elt F) → (⟨S1700000, .i32⟩ : BufTy).Contents (Elt F)),
    StableHlo.ternary main_v26 main_v28 main_v9 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v29 main_v30 (broadcastInDim S1700000x1 ![0] bcast_S1700000_S1700000x1_0 : (⟨S1700000, .i32⟩ : BufTy).Contents (Elt F) → (⟨S1700000x1, .i32⟩ : BufTy).Contents (Elt F)),
    StableHlo.binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v24 main_v31 main_v32 (mulf : (⟨S1700000, .f32⟩ : BufTy).Contents (Elt F) → (⟨S1700000, .f32⟩ : BufTy).Contents (Elt F) → (⟨S1700000, .f32⟩ : BufTy).Contents (Elt F)) ]

/-- 19 host operations of @main, in order. -/
abbrev hostOps1 : List (HloOp τ sig (Elt F)) :=
  [ StableHlo.nullary main_c_6 (constantI S_ 32 0#32),
    StableHlo.unary main_c_6 main_v34 (broadcastInDim S1700000 ![] bcast_S_S1700000 : (⟨S_, .i32⟩ : BufTy).Contents (Elt F) → (⟨S1700000, .i32⟩ : BufTy).Contents (Elt F)),
    StableHlo.binary main_v7 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v7 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v7 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v33 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v32 main_v41 (broadcastInDim S1700000x1 ![0] bcast_S1700000_S1700000x1_0 : (⟨S1700000, .f32⟩ : BufTy).Contents (Elt F) → (⟨S1700000x1, .f32⟩ : BufTy).Contents (Elt F)),
    StableHlo.unary main_v41 main_v42 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v40 main_v42 main_v43 (mulf : (⟨S1700000x64, .f32⟩ : BufTy).Contents (Elt F) → (⟨S1700000x64, .f32⟩ : BufTy).Contents (Elt F) → (⟨S1700000x64, .f32⟩ : BufTy).Contents (Elt F)),
    StableHlo.nullary main_cst_8 (constant S_ .f32 0x00000000#32),
    StableHlo.unary main_cst_8 main_v44 (broadcastInDim S100000x64 ![] bcast_S_S100000x64 : (⟨S_, .f32⟩ : BufTy).Contents (Elt F) → (⟨S100000x64, .f32⟩ : BufTy).Contents (Elt F)),
    StableHlo.unary main_v9 main_v45 (broadcastInDim S1700000x1 ![0] bcast_S1700000_S1700000x1_0 : (⟨S1700000, .i32⟩ : BufTy).Contents (Elt F) → (⟨S1700000x1, .i32⟩ : BufTy).Contents (Elt F)),
    StableHlo.ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg3 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v48 main_v49 (addf : (⟨S100000x64, .f32⟩ : BufTy).Contents (Elt F) → (⟨S100000x64, .f32⟩ : BufTy).Contents (Elt F) → (⟨S100000x64, .f32⟩ : BufTy).Contents (Elt F)) ]

/-- 3 host operations of @relu (main_call1), in order. -/
abbrev hostOps1_1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v49 : StableHlo.TRef sig ⟨S100000x64, .f32⟩) (.of main_call1_v0 : StableHlo.TRef sig ⟨S100000x64, .f32⟩) (.of main_v50 : StableHlo.TRef sig ⟨S100000x64, .f32⟩) maximumf ]

/-- 19 host operations of @main, in order. -/
abbrev hostOps2 : List (HloOp τ sig (Elt F)) :=
  [ StableHlo.nullary main_c_9 (constantI S_ 32 0#32),
    StableHlo.unary main_c_9 main_v52 (broadcastInDim S1700000 ![] bcast_S_S1700000 : (⟨S_, .i32⟩ : BufTy).Contents (Elt F) → (⟨S1700000, .i32⟩ : BufTy).Contents (Elt F)),
    StableHlo.binary main_v7 main_v52 main_v53 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v54 (broadcastInDim S1700000 ![] bcast_S_S1700000 : (⟨S_, .i32⟩ : BufTy).Contents (Elt F) → (⟨S1700000, .i32⟩ : BufTy).Contents (Elt F)),
    StableHlo.binary main_v7 main_v54 main_v55 (addi : (⟨S1700000, .i32⟩ : BufTy).Contents (Elt F) → (⟨S1700000, .i32⟩ : BufTy).Contents (Elt F) → (⟨S1700000, .i32⟩ : BufTy).Contents (Elt F)),
    StableHlo.ternary main_v53 main_v55 main_v7 main_v56 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v56 main_v57 (broadcastInDim S1700000x1 ![0] bcast_S1700000_S1700000x1_0 : (⟨S1700000, .i32⟩ : BufTy).Contents (Elt F) → (⟨S1700000x1, .i32⟩ : BufTy).Contents (Elt F)),
    StableHlo.binary main_v51 main_v57 main_v58 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    StableHlo.unary main_v32 main_v59 (broadcastInDim S1700000x1 ![0] bcast_S1700000_S1700000x1_0 : (⟨S1700000, .f32⟩ : BufTy).Contents (Elt F) → (⟨S1700000x1, .f32⟩ : BufTy).Contents (Elt F)),
    StableHlo.unary main_v59 main_v60 (broadcastInDim S1700000x32 ![0, 1] bcast_S1700000x1_S1700000x32_0_1 : (⟨S1700000x1, .f32⟩ : BufTy).Contents (Elt F) → (⟨S1700000x32, .f32⟩ : BufTy).Contents (Elt F)),
    StableHlo.binary main_v58 main_v60 main_v61 (mulf : (⟨S1700000x32, .f32⟩ : BufTy).Contents (Elt F) → (⟨S1700000x32, .f32⟩ : BufTy).Contents (Elt F) → (⟨S1700000x32, .f32⟩ : BufTy).Contents (Elt F)),
    StableHlo.nullary main_cst_11 (constant S_ .f32 0x00000000#32),
    StableHlo.unary main_cst_11 main_v62 (broadcastInDim S100000x32 ![] bcast_S_S100000x32 : (⟨S_, .f32⟩ : BufTy).Contents (Elt F) → (⟨S100000x32, .f32⟩ : BufTy).Contents (Elt F)),
    StableHlo.unary main_v9 main_v63 (broadcastInDim S1700000x1 ![0] bcast_S1700000_S1700000x1_0 : (⟨S1700000, .i32⟩ : BufTy).Contents (Elt F) → (⟨S1700000x1, .i32⟩ : BufTy).Contents (Elt F)),
    StableHlo.ternary main_v62 main_v63 main_v61 main_v64 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    StableHlo.unary main_arg5 main_v65 (broadcastInDim S1x32 ![1] bcast_S32_S1x32_1 : (⟨S32, .f32⟩ : BufTy).Contents (Elt F) → (⟨S1x32, .f32⟩ : BufTy).Contents (Elt F)),
    StableHlo.unary main_v65 main_v66 (broadcastInDim S100000x32 ![0, 1] bcast_S1x32_S100000x32_0_1 : (⟨S1x32, .f32⟩ : BufTy).Contents (Elt F) → (⟨S100000x32, .f32⟩ : BufTy).Contents (Elt F)),
    StableHlo.binary main_v64 main_v66 main_v67 (addf : (⟨S100000x32, .f32⟩ : BufTy).Contents (Elt F) → (⟨S100000x32, .f32⟩ : BufTy).Contents (Elt F) → (⟨S100000x32, .f32⟩ : BufTy).Contents (Elt F)) ]

end Cert.ReferenceIdeal.Gen

end
-- ==== Proof.RStages.lean ====
/-
  The graph-convolution stages that surround the two dense products, as functions of the arrays they read.

  An edge list of 1600000 (source, target) pairs gets one self loop per node appended (1700000 pairs). A node's degree
  is the number of pairs whose target it is; its weight is degree^(-1/2) where the degree is positive and 0 elsewhere;
  an edge's coefficient is the product of its two endpoints' weights. A negative endpoint index counts from the end
  (100000 is added to it) before a row is gathered. One convolution gathers the source rows of a feature matrix, scales
  each by its edge's coefficient, adds the scaled rows into their targets' rows starting from zero, and adds a bias row
  to every node. The first layer ends with a maximum against zero.
-/
import proofs.«172964_j75969381531758_1_alg».proof.Proof.Gen.ReferenceIdeal

noncomputable section

namespace Cert.ReferenceIdeal.Stage

open Cert.ReferenceIdeal Cert.ReferenceIdeal.Gen Idealize.ShloMosaic Idealize.SL.Sem

variable {F : FTy → Type} [FloatOps F]

/-- The edge list with the self loops (node n to node n, for every n) appended. -/
def edges (ei : (⟨S2x1600000, .i32⟩ : BufTy).Contents (Elt F)) : (⟨S2x1700000, .i32⟩ : BufTy).Contents (Elt F) :=
  concatenate S2x1700000 1 [⟨S2x1600000, ei⟩, ⟨S2x100000, (shapeCast _ (broadcastInDim S2x1x1x100000 ![0, 1, 2, 3] bcast_S1x1x1x100000_S2x1x1x100000_0_1_2_3 (shapeCast _ (broadcastInDim S1x100000 ![1] bcast_S100000_S1x100000_1 (iotaInDim S100000 32 0)) shapeCasts_S1x100000_S1x1x1x100000)) shapeCasts_S2x1x1x100000_S2x100000)⟩] concatenates_S2x1600000_S2x100000_S2x1700000_d1

/-- Every edge's source node. -/
def srcs (ei : (⟨S2x1600000, .i32⟩ : BufTy).Contents (Elt F)) : (⟨S1700000, .i32⟩ : BufTy).Contents (Elt F) :=
  shapeCast _ (extractStridedSlice S1x1700000 ![0, 0] (edges (F := F) ei) slices_S2x1700000_S1x1700000_0_0) shapeCasts_S1x1700000_S1700000

/-- Every edge's target node. -/
def dsts (ei : (⟨S2x1600000, .i32⟩ : BufTy).Contents (Elt F)) : (⟨S1700000, .i32⟩ : BufTy).Contents (Elt F) :=
  shapeCast _ (extractStridedSlice S1x1700000 ![1, 0] (edges (F := F) ei) slices_S2x1700000_S1x1700000_1_0) shapeCasts_S1x1700000_S1700000

/-- Node indices made ready for a gather: a negative one has 100000 added; then one index per row. -/
def wrap (r : (⟨S1700000, .i32⟩ : BufTy).Contents (Elt F)) : (⟨S1700000x1, .i32⟩ : BufTy).Contents (Elt F) :=
  broadcastInDim S1700000x1 ![0] bcast_S1700000_S1700000x1_0 (select (cmpi .slt r (broadcastInDim S1700000 ![] bcast_S_S1700000 (constantI S_ 32 0#32))) (addi r (broadcastInDim S1700000 ![] bcast_S_S1700000 (constantI S_ 32 100000#32))) r)

/-- A node's degree: one added per edge into it, from zero. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- Where a degree is positive. -/
def degPos (d : (⟨S1700000, .i32⟩ : BufTy).Contents (Elt F)) : (⟨S100000, .i1⟩ : BufTy).Contents (Elt F) :=
  cmpf (F := F) .ogt (deg (F := F) d) (broadcastInDim S100000 ![] bcast_S_S100000 (constant S_ .f32 0x00000000#32))

/-- The inverse square root of every degree. -/
def degRsqrt (d : (⟨S1700000, .i32⟩ : BufTy).Contents (Elt F)) : (⟨S100000, .f32⟩ : BufTy).Contents (Elt F) :=
  Host.rsqrt (deg (F := F) d)

/-- A node's weight: the inverse square root of its degree where that is positive, the given scalar elsewhere. -/
def weight (pos : (⟨S100000, .i1⟩ : BufTy).Contents (Elt F)) (rs : (⟨S100000, .f32⟩ : BufTy).Contents (Elt F))
    (z : (⟨S_, .f32⟩ : BufTy).Contents (Elt F)) : (⟨S100000, .f32⟩ : BufTy).Contents (Elt F) :=
  select pos rs (broadcastInDim S100000 ![] bcast_S_S100000 (id z))

/-- An edge's coefficient: the product of its source's and its target's weights. -/
def coef (w : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 w (wrap (F := F) s)) (Host.gather gather_S100000_S1700000x1_S1700000_n_0_n_n_0_1_1 w (wrap (F := F) d))

/-- The coefficients of all edges, from the edge list. -/
def norm (ei : (⟨S2x1600000, .i32⟩ : BufTy).Contents (Elt F)) : (⟨S1700000, .f32⟩ : BufTy).Contents (Elt F) :=
  coef (weight (degPos (F := F) (dsts (F := F) ei)) (degRsqrt (dsts (F := F) ei)) (constant S_ .f32 0x00000000#32)) (srcs (F := F) ei) (dsts (F := F) ei)

/-- One convolution over 64 features: gather the sources' rows, scale by the coefficients, add into the targets' rows
    from zero, add the bias to every row. -/
def conv64 (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) :
    (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrap (F := F) s)) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- The maximum with zero, entry by entry. -/
def relu64 (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- The same convolution over 32 features. -/
def conv32 (h : (⟨S100000x32, .f32⟩ : BufTy).Contents (Elt F)) (s d : (⟨S1700000, .i32⟩ : BufTy).Contents (Elt F))
    (n : (⟨S1700000, .f32⟩ : BufTy).Contents (Elt F)) (b : (⟨S32, .f32⟩ : BufTy).Contents (Elt F)) :
    (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 d) (mulf (Host.gather gather_S100000x32_S1700000x1_S1700000x32_1_0_n_n_0_1_132 h (wrap (F := F) s)) (broadcastInDim S1700000x32 ![0, 1] bcast_S1700000x1_S1700000x32_0_1 (broadcastInDim S1700000x1 ![0] bcast_S1700000_S1700000x1_0 n)))) (broadcastInDim S100000x32 ![0, 1] bcast_S1x32_S100000x32_0_1 (broadcastInDim S1x32 ![1] bcast_S32_S1x32_1 b))

end Cert.ReferenceIdeal.Stage

end
-- ==== Proof.RHost.lean ====
/-
  Each stretch of host operations of the program, read at the buffers later stretches use: the value a
  stretch leaves in a buffer is the stage function of the values it found in the buffers it reads, and a buffer no
  operation of the stretch writes keeps its contents.
-/
import proofs.«172964_j75969381531758_1_alg».proof.Proof.RParts
import proofs.«172964_j75969381531758_1_alg».proof.Proof.RStages
import Idealize.ShloMosaic.Lib.StableHlo.Run

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

/-- A buffer that no operation of a literal list writes holds after the list what it held before
    (the list is named so that its operations can be looked at one by one). -/
macro "kept " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first stretch: the edge list with self loops, the degrees -/

theorem ops0_srcs : after (hostOps0 (F := F)) W (Proc.devRef .tc main_v7) = srcs (W (Proc.devRef .tc main_arg1)) := by
  dsimp only [hostOps0]; after_results; rfl

theorem ops0_dsts : after (hostOps0 (F := F)) W (Proc.devRef .tc main_v9) = dsts (W (Proc.devRef .tc main_arg1)) := by
  dsimp only [hostOps0]; after_results; rfl

theorem ops0_degPos : after (hostOps0 (F := F)) W (Proc.devRef .tc main_v15) = degPos (dsts (W (Proc.devRef .tc main_arg1))) := by
  dsimp only [hostOps0]; after_results; rfl

theorem ops0_degRsqrt : after (hostOps0 (F := F)) W (Proc.devRef .tc main_v16) = degRsqrt (dsts (W (Proc.devRef .tc main_arg1))) := by
  dsimp only [hostOps0]; after_results; rfl

theorem ops0_zero : after (hostOps0 (F := F)) W (Proc.devRef .tc main_cst_2) = constant S_ .f32 0x00000000#32 := by
  dsimp only [hostOps0]; after_results

/-! ## The select of the weights -/

theorem ops0_1_weight : after (hostOps0_1 (F := F)) W (Proc.devRef .tc main_v17)
    = weight (W (Proc.devRef .tc main_v15)) (W (Proc.devRef .tc main_v16)) (W (Proc.devRef .tc main_cst_2)) := by
  dsimp only [hostOps0_1]; after_results; rfl

/-! ## The edge coefficients -/

theorem ops0_2_coef : after (hostOps0_2 (F := F)) W (Proc.devRef .tc main_v32)
    = coef (W (Proc.devRef .tc main_v17)) (W (Proc.devRef .tc main_v7)) (W (Proc.devRef .tc main_v9)) := by
  dsimp only [hostOps0_2]; after_results_simp; rfl

/-! ## The first convolution and its maximum with zero -/

theorem ops1_conv : after (hostOps1 (F := F)) W (Proc.devRef .tc main_v49)
    = conv64 (W (Proc.devRef .tc main_v33)) (W (Proc.devRef .tc main_v7)) (W (Proc.devRef .tc main_v9))
        (W (Proc.devRef .tc main_v32)) (W (Proc.devRef .tc main_arg3)) := by
  dsimp only [hostOps1]; after_results_simp; rfl

theorem ops1_1_relu : after (hostOps1_1 (F := F)) W (Proc.devRef .tc main_v50) = relu64 (W (Proc.devRef .tc main_v49)) := by
  dsimp only [hostOps1_1]; after_results; rfl

/-! ## The second convolution -/

theorem ops2_conv : after (hostOps2 (F := F)) W (Proc.devRef .tc main_v67)
    = conv32 (W (Proc.devRef .tc main_v51)) (W (Proc.devRef .tc main_v7)) (W (Proc.devRef .tc main_v9))
        (W (Proc.devRef .tc main_v32)) (W (Proc.devRef .tc main_arg5)) := by
  dsimp only [hostOps2]; after_results_simp; rfl

end Cert.ReferenceIdeal.Stage

end
-- ==== Proof.RValue.lean ====
/-
  The value the reference program leaves in its result buffer, as one function of its six argument arrays. The reference
  is one straight line of host operations: the six stretches the kernel's program also has, with one matrix product on
  the host between the third and fourth and one between the fifth and sixth. Its run ends with every buffer at the
  fold of the operations over the launch contents; the fold is cut at the same boundaries as the kernel's program and
  the same buffers are followed across them.
-/
import proofs.«172964_j75969381531758_1_alg».proof.Proof.RefRun
import proofs.«172964_j75969381531758_1_alg».proof.Proof.RHost
import Idealize.ShloMosaic.Lib.Pipeline.Frame

set_option maxRecDepth 16384

noncomputable section

namespace Cert.ReferenceIdeal.Out

open Cert.ReferenceIdeal Cert.ReferenceIdeal.Gen Cert.ReferenceIdeal.Stage Cert.ReferenceIdeal.ValueP
open Idealize.ShloMosaic Idealize.ShloMosaic.TcCoe Idealize.SL.Sem Idealize.ShloMosaic.StableHlo

variable {F : FTy → Type} [FloatOps F]

/-- The first product, features by first weights, as a one-operation list; -/
abbrev dotOps1 : List (HloOp τ sig (Elt F)) :=
  [ binary main_arg0 main_arg2 main_v33 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- and the second, hidden features by second weights. -/
abbrev dotOps2 : List (HloOp τ sig (Elt F)) :=
  [ binary main_v50 main_arg4 main_v51 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]

/-- The program's operations are the eight pieces in order. -/
theorem ops_split : (ops : List (HloOp τ sig (Elt F)))
    = hostOps0 ++ (hostOps0_1 ++ (hostOps0_2 ++ (dotOps1 ++ (hostOps1 ++ (hostOps1_1 ++ (dotOps2 ++ hostOps2)))))) := rfl

variable (m : (ℓ : Loc nD τ sig) → Buf (Elt F) ℓ) (c : Dev nD)

/-- The buffer contents at each boundary, from the launch. -/
abbrev R0 : Valuation τ sig (Elt F) := launchContents m c
abbrev R1 : Valuation τ sig (Elt F) := after hostOps0 (R0 m c)
abbrev R2 : Valuation τ sig (Elt F) := after hostOps0_1 (R1 m c)
abbrev R3 : Valuation τ sig (Elt F) := after hostOps0_2 (R2 m c)
abbrev R4 : Valuation τ sig (Elt F) := after dotOps1 (R3 m c)
abbrev R5 : Valuation τ sig (Elt F) := after hostOps1 (R4 m c)
abbrev R6 : Valuation τ sig (Elt F) := after hostOps1_1 (R5 m c)
abbrev R7 : Valuation τ sig (Elt F) := after dotOps2 (R6 m c)
abbrev R8 : Valuation τ sig (Elt F) := after hostOps2 (R7 m c)

/-- The fold over the whole program is the fold piece by piece. -/
theorem fold_eq : after ops (launchContents m c) = R8 m c := by
  rw [ops_split]
  simp only [StableHlo.after_append]

/-- The argument arrays at launch, at their literal types. -/
abbrev feat : (⟨S100000x128, .f32⟩ : BufTy).Contents (Elt F) := m ((c : Thread nD τ).loc main_arg0)
abbrev edgeIx : (⟨S2x1600000, .i32⟩ : BufTy).Contents (Elt F) := m ((c : Thread nD τ).loc main_arg1)
abbrev wt1 : (⟨S128x64, .f32⟩ : BufTy).Contents (Elt F) := m ((c : Thread nD τ).loc main_arg2)
abbrev bias1 : (⟨S64, .f32⟩ : BufTy).Contents (Elt F) := m ((c : Thread nD τ).loc main_arg3)
abbrev wt2 : (⟨S64x32, .f32⟩ : BufTy).Contents (Elt F) := m ((c : Thread nD τ).loc main_arg4)
abbrev bias2 : (⟨S32, .f32⟩ : BufTy).Contents (Elt F) := m ((c : Thread nD τ).loc main_arg5)

/-! ## Before the first product -/

theorem at3_srcs : R3 m c (Proc.devRef .tc main_v7) = srcs (edgeIx m c) :=
  calc R3 m c (Proc.devRef .tc main_v7)
    _ = R2 m c (Proc.devRef .tc main_v7) := by kept hostOps0_2
    _ = R1 m c (Proc.devRef .tc main_v7) := by kept hostOps0_1
    _ = srcs (edgeIx m c) := ops0_srcs (R0 m c)

theorem at3_dsts : R3 m c (Proc.devRef .tc main_v9) = dsts (edgeIx m c) :=
  calc R3 m c (Proc.devRef .tc main_v9)
    _ = R2 m c (Proc.devRef .tc main_v9) := by kept hostOps0_2
    _ = R1 m c (Proc.devRef .tc main_v9) := by kept hostOps0_1
    _ = dsts (edgeIx m c) := ops0_dsts (R0 m c)

theorem at2_weight : R2 m c (Proc.devRef .tc main_v17)
    = weight (degPos (dsts (edgeIx m c))) (degRsqrt (dsts (edgeIx m c))) (constant (F := F) S_ .f32 0x00000000#32) := by
  refine (ops0_1_weight (R1 m c)).trans ?_
  rw [show R1 m c (Proc.devRef .tc main_v15) = degPos (dsts (edgeIx m c)) from ops0_degPos (R0 m c),
    show R1 m c (Proc.devRef .tc main_v16) = degRsqrt (dsts (edgeIx m c)) from ops0_degRsqrt (R0 m c),
    show R1 m c (Proc.devRef .tc main_cst_2) = constant (F := F) S_ .f32 0x00000000#32 from ops0_zero (R0 m c)]

theorem at3_norm : R3 m c (Proc.devRef .tc main_v32) = norm (edgeIx m c) := by
  refine (ops0_2_coef (R2 m c)).trans ?_
  rw [at2_weight m c,
    show R2 m c (Proc.devRef .tc main_v7) = srcs (edgeIx m c) from
      (show R2 m c (Proc.devRef .tc main_v7) = R1 m c (Proc.devRef .tc main_v7) by kept hostOps0_1).trans (ops0_srcs (R0 m c)),
    show R2 m c (Proc.devRef .tc main_v9) = dsts (edgeIx m c) from
      (show R2 m c (Proc.devRef .tc main_v9) = R1 m c (Proc.devRef .tc main_v9) by kept hostOps0_1).trans (ops0_dsts (R0 m c))]
  rfl

/-- An argument no stretch before the first product writes. -/
theorem at3_arg (r : Ref sig .tc) (h0 : after hostOps0 (R0 m c) (Proc.devRef .tc r) = R0 m c (Proc.devRef .tc r))
    (h1 : after hostOps0_1 (R1 m c) (Proc.devRef .tc r) = R1 m c (Proc.devRef .tc r))
    (h2 : after hostOps0_2 (R2 m c) (Proc.devRef .tc r) = R2 m c (Proc.devRef .tc r)) :
    R3 m c (Proc.devRef .tc r) = R0 m c (Proc.devRef .tc r) := h2.trans (h1.trans h0)

theorem at3_feat : R3 m c (Proc.devRef .tc main_arg0) = feat m c :=
  at3_arg m c main_arg0 (by kept hostOps0) (by kept hostOps0_1) (by kept hostOps0_2)
theorem at3_wt1 : R3 m c (Proc.devRef .tc main_arg2) = wt1 m c :=
  at3_arg m c main_arg2 (by kept hostOps0) (by kept hostOps0_1) (by kept hostOps0_2)
theorem at3_bias1 : R3 m c (Proc.devRef .tc main_arg3) = bias1 m c :=
  at3_arg m c main_arg3 (by kept hostOps0) (by kept hostOps0_1) (by kept hostOps0_2)
theorem at3_wt2 : R3 m c (Proc.devRef .tc main_arg4) = wt2 m c :=
  at3_arg m c main_arg4 (by kept hostOps0) (by kept hostOps0_1) (by kept hostOps0_2)
theorem at3_bias2 : R3 m c (Proc.devRef .tc main_arg5) = bias2 m c :=
  at3_arg m c main_arg5 (by kept hostOps0) (by kept hostOps0_1) (by kept hostOps0_2)

/-! ## After the first product -/

/-- The host's product of the features by the first weights. -/
abbrev prod1 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w
/-- The host's product of the hidden features by the second weights. -/
abbrev prod2 (x : (⟨S100000x64, .f32⟩ : BufTy).Contents (Elt F)) (w : (⟨S64x32, .f32⟩ : BufTy).Contents (Elt F)) :
    (⟨S100000x32, .f32⟩ : BufTy).Contents (Elt F) :=
  Host.dotGeneral dot_S100000x64_S64x32_S100000x32_1_0_0_1_n_n none x w

theorem at4_prod : R4 m c (Proc.devRef .tc main_v33) = prod1 (feat m c) (wt1 m c) := by
  have h : R4 m c (Proc.devRef .tc main_v33) = prod1 (R3 m c (Proc.devRef .tc main_arg0)) (R3 m c (Proc.devRef .tc main_arg2)) := by
    show after dotOps1 (R3 m c) (Proc.devRef .tc main_v33) = _
    dsimp only [dotOps1]; after_results
  rw [h, at3_feat m c, at3_wt1 m c]

theorem at4_srcs : R4 m c (Proc.devRef .tc main_v7) = srcs (edgeIx m c) :=
  (show R4 m c (Proc.devRef .tc main_v7) = R3 m c (Proc.devRef .tc main_v7) by kept dotOps1).trans (at3_srcs m c)
theorem at4_dsts : R4 m c (Proc.devRef .tc main_v9) = dsts (edgeIx m c) :=
  (show R4 m c (Proc.devRef .tc main_v9) = R3 m c (Proc.devRef .tc main_v9) by kept dotOps1).trans (at3_dsts m c)
theorem at4_norm : R4 m c (Proc.devRef .tc main_v32) = norm (edgeIx m c) :=
  (show R4 m c (Proc.devRef .tc main_v32) = R3 m c (Proc.devRef .tc main_v32) by kept dotOps1).trans (at3_norm m c)
theorem at4_bias1 : R4 m c (Proc.devRef .tc main_arg3) = bias1 m c :=
  (show R4 m c (Proc.devRef .tc main_arg3) = R3 m c (Proc.devRef .tc main_arg3) by kept dotOps1).trans (at3_bias1 m c)
theorem at4_wt2 : R4 m c (Proc.devRef .tc main_arg4) = wt2 m c :=
  (show R4 m c (Proc.devRef .tc main_arg4) = R3 m c (Proc.devRef .tc main_arg4) by kept dotOps1).trans (at3_wt2 m c)
theorem at4_bias2 : R4 m c (Proc.devRef .tc main_arg5) = bias2 m c :=
  (show R4 m c (Proc.devRef .tc main_arg5) = R3 m c (Proc.devRef .tc main_arg5) by kept dotOps1).trans (at3_bias2 m c)

/-! ## Before the second product -/

/-- The hidden features: the first convolution of the first product, then the maximum with zero. -/
def hidden : (⟨S100000x64, .f32⟩ : BufTy).Contents (Elt F) :=
  relu64 (conv64 (prod1 (feat m c) (wt1 m c)) (srcs (edgeIx m c)) (dsts (edgeIx m c)) (norm (edgeIx m c)) (bias1 m c))

theorem at6_hidden : R6 m c (Proc.devRef .tc main_v50) = hidden m c := by
  refine (ops1_1_relu (R5 m c)).trans ?_
  rw [show R5 m c (Proc.devRef .tc main_v49) = _ from ops1_conv (R4 m c),
    at4_prod m c, at4_srcs m c, at4_dsts m c, at4_norm m c, at4_bias1 m c]
  rfl

/-- A buffer neither the convolution's nor the maximum's stretch writes. -/
theorem at6_keep (r : Ref sig .tc) (h1 : after hostOps1 (R4 m c) (Proc.devRef .tc r) = R4 m c (Proc.devRef .tc r))
    (h2 : after hostOps1_1 (R5 m c) (Proc.devRef .tc r) = R5 m c (Proc.devRef .tc r)) :
    R6 m c (Proc.devRef .tc r) = R4 m c (Proc.devRef .tc r) := h2.trans h1

theorem at6_srcs : R6 m c (Proc.devRef .tc main_v7) = srcs (edgeIx m c) :=
  (at6_keep m c main_v7 (by kept hostOps1) (by kept hostOps1_1)).trans (at4_srcs m c)
theorem at6_dsts : R6 m c (Proc.devRef .tc main_v9) = dsts (edgeIx m c) :=
  (at6_keep m c main_v9 (by kept hostOps1) (by kept hostOps1_1)).trans (at4_dsts m c)
theorem at6_norm : R6 m c (Proc.devRef .tc main_v32) = norm (edgeIx m c) :=
  (at6_keep m c main_v32 (by kept hostOps1) (by kept hostOps1_1)).trans (at4_norm m c)
theorem at6_wt2 : R6 m c (Proc.devRef .tc main_arg4) = wt2 m c :=
  (at6_keep m c main_arg4 (by kept hostOps1) (by kept hostOps1_1)).trans (at4_wt2 m c)
theorem at6_bias2 : R6 m c (Proc.devRef .tc main_arg5) = bias2 m c :=
  (at6_keep m c main_arg5 (by kept hostOps1) (by kept hostOps1_1)).trans (at4_bias2 m c)

/-! ## After the second product, and the result -/

theorem at7_prod : R7 m c (Proc.devRef .tc main_v51) = prod2 (hidden m c) (wt2 m c) := by
  have h : R7 m c (Proc.devRef .tc main_v51) = prod2 (R6 m c (Proc.devRef .tc main_v50)) (R6 m c (Proc.devRef .tc main_arg4)) := by
    show after dotOps2 (R6 m c) (Proc.devRef .tc main_v51) = _
    dsimp only [dotOps2]; after_results
  rw [h, at6_hidden m c, at6_wt2 m c]

/-- The whole network's result: the second convolution of the second product of the hidden features. -/
def result : (⟨S100000x32, .f32⟩ : BufTy).Contents (Elt F) :=
  conv32 (prod2 (hidden m c) (wt2 m c)) (srcs (edgeIx m c)) (dsts (edgeIx m c)) (norm (edgeIx m c)) (bias2 m c)

theorem at8_result : R8 m c (Proc.devRef .tc main_v67) = result m c := by
  refine (ops2_conv (R7 m c)).trans ?_
  rw [at7_prod m c,
    (show R7 m c (Proc.devRef .tc main_v7) = R6 m c (Proc.devRef .tc main_v7) by kept dotOps2).trans (at6_srcs m c),
    (show R7 m c (Proc.devRef .tc main_v9) = R6 m c (Proc.devRef .tc main_v9) by kept dotOps2).trans (at6_dsts m c),
    (show R7 m c (Proc.devRef .tc main_v32) = R6 m c (Proc.devRef .tc main_v32) by kept dotOps2).trans (at6_norm m c),
    (show R7 m c (Proc.devRef .tc main_arg5) = R6 m c (Proc.devRef .tc main_arg5) by kept dotOps2).trans (at6_bias2 m c)]
  rfl

/-- An argument array no operation of the program writes. -/
theorem arg_kept (r : Ref sig .tc)
    (h0 : after hostOps0 (R0 m c) (Proc.devRef .tc r) = R0 m c (Proc.devRef .tc r))
    (h1 : after hostOps0_1 (R1 m c) (Proc.devRef .tc r) = R1 m c (Proc.devRef .tc r))
    (h2 : after hostOps0_2 (R2 m c) (Proc.devRef .tc r) = R2 m c (Proc.devRef .tc r))
    (h3 : after dotOps1 (R3 m c) (Proc.devRef .tc r) = R3 m c (Proc.devRef .tc r))
    (h4 : after hostOps1 (R4 m c) (Proc.devRef .tc r) = R4 m c (Proc.devRef .tc r))
    (h5 : after hostOps1_1 (R5 m c) (Proc.devRef .tc r) = R5 m c (Proc.devRef .tc r))
    (h6 : after dotOps2 (R6 m c) (Proc.devRef .tc r) = R6 m c (Proc.devRef .tc r))
    (h7 : after hostOps2 (R7 m c) (Proc.devRef .tc r) = R7 m c (Proc.devRef .tc r)) :
    R8 m c (Proc.devRef .tc r) = m ((c.tc : Thread nD τ).loc r) :=
  h7.trans (h6.trans (h5.trans (h4.trans (h3.trans (h2.trans (h1.trans h0))))))

/-- The reference's run: it terminates with the result buffer at the network's result and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v67) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v67).trans ((congrFun (fold_eq m c) _).trans (at8_result m c)),
     (h c main_arg0).trans ((congrFun (fold_eq m c) _).trans (arg_kept m c main_arg0 (by kept hostOps0) (by kept hostOps0_1) (by kept hostOps0_2) (by kept dotOps1) (by kept hostOps1) (by kept hostOps1_1) (by kept dotOps2) (by kept hostOps2))),
     (h c main_arg1).trans ((congrFun (fold_eq m c) _).trans (arg_kept m c main_arg1 (by kept hostOps0) (by kept hostOps0_1) (by kept hostOps0_2) (by kept dotOps1) (by kept hostOps1) (by kept hostOps1_1) (by kept dotOps2) (by kept hostOps2))),
     (h c main_arg2).trans ((congrFun (fold_eq m c) _).trans (arg_kept m c main_arg2 (by kept hostOps0) (by kept hostOps0_1) (by kept hostOps0_2) (by kept dotOps1) (by kept hostOps1) (by kept hostOps1_1) (by kept dotOps2) (by kept hostOps2))),
     (h c main_arg3).trans ((congrFun (fold_eq m c) _).trans (arg_kept m c main_arg3 (by kept hostOps0) (by kept hostOps0_1) (by kept hostOps0_2) (by kept dotOps1) (by kept hostOps1) (by kept hostOps1_1) (by kept dotOps2) (by kept hostOps2))),
     (h c main_arg4).trans ((congrFun (fold_eq m c) _).trans (arg_kept m c main_arg4 (by kept hostOps0) (by kept hostOps0_1) (by kept hostOps0_2) (by kept dotOps1) (by kept hostOps1) (by kept hostOps1_1) (by kept dotOps2) (by kept hostOps2))),
     (h c main_arg5).trans ((congrFun (fold_eq m c) _).trans (arg_kept m c main_arg5 (by kept hostOps0) (by kept hostOps0_1) (by kept hostOps0_2) (by kept dotOps1) (by kept hostOps1) (by kept hostOps1_1) (by kept dotOps2) (by kept hostOps2)))⟩)
    (run_seq scopedRefs_eq scopedSems_eq defs main (fun _ => ops) main_eq (fun _ => ops_sub) m ρ)

end Cert.ReferenceIdeal.Out

end
-- ==== Proof.Bridge.lean ====
/-
  The two programs compute one function. Outside the two matrix products they apply the same operations to the same
  buffers, so each stage function read off the kernel's program is the stage function read off the reference, and the
  kernel's blockwise products are the host's products; with arguments that agree the two results are equal.
-/
import proofs.«172964_j75969381531758_1_alg».proof.Proof.KValue
import proofs.«172964_j75969381531758_1_alg».proof.Proof.RValue

set_option maxRecDepth 16384

noncomputable section

namespace Cert.Proof.Bridge

open Idealize.ShloMosaic Idealize.ShloMosaic.TcCoe Idealize.SL.Sem

section Stages
variable {F : FTy → Type} [FloatOps F]

/-! The stage functions of the two programs are the same terms over the same shapes. -/
theorem srcs_eq : Cert.KernelIdeal.Stage.srcs (F := F) = Cert.ReferenceIdeal.Stage.srcs (F := F) := rfl
theorem dsts_eq : Cert.KernelIdeal.Stage.dsts (F := F) = Cert.ReferenceIdeal.Stage.dsts (F := F) := rfl
theorem norm_eq : Cert.KernelIdeal.Stage.norm (F := F) = Cert.ReferenceIdeal.Stage.norm (F := F) := rfl
theorem conv64_eq : Cert.KernelIdeal.Stage.conv64 (F := F) = Cert.ReferenceIdeal.Stage.conv64 (F := F) := rfl
theorem relu64_eq : Cert.KernelIdeal.Stage.relu64 (F := F) = Cert.ReferenceIdeal.Stage.relu64 (F := F) := rfl
theorem conv32_eq : Cert.KernelIdeal.Stage.conv32 (F := F) = Cert.ReferenceIdeal.Stage.conv32 (F := F) := rfl
end Stages

/-- The kernel's first product, block by block, is the host's product of the whole arrays. -/
theorem prod1_eq : Cert.KernelIdeal.Layer1.prod = Cert.ReferenceIdeal.Out.prod1 (F := Ideal) := rfl
/-- The same for the second product. -/
theorem prod2_eq : Cert.KernelIdeal.Layer2.prod = Cert.ReferenceIdeal.Out.prod2 (F := Ideal) := rfl

/-- With the six argument arrays equal, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Out.feat m' c = Cert.KernelIdeal.Out.feat m c)
    (h1 : Cert.ReferenceIdeal.Out.edgeIx m' c = Cert.KernelIdeal.Out.edgeIx m c)
    (h2 : Cert.ReferenceIdeal.Out.wt1 m' c = Cert.KernelIdeal.Out.wt1 m c)
    (h3 : Cert.ReferenceIdeal.Out.bias1 m' c = Cert.KernelIdeal.Out.bias1 m c)
    (h4 : Cert.ReferenceIdeal.Out.wt2 m' c = Cert.KernelIdeal.Out.wt2 m c)
    (h5 : Cert.ReferenceIdeal.Out.bias2 m' c = Cert.KernelIdeal.Out.bias2 m c) :
    Cert.ReferenceIdeal.Out.result m' c = Cert.KernelIdeal.Out.result m c := by
  unfold Cert.ReferenceIdeal.Out.result Cert.KernelIdeal.Out.result Cert.ReferenceIdeal.Out.hidden Cert.KernelIdeal.Out.hidden
  rw [h0, h1, h2, h3, h4, h5, prod1_eq, prod2_eq, srcs_eq, dsts_eq, norm_eq, conv64_eq, relu64_eq, conv32_eq]

end Cert.Proof.Bridge

end
-- ==== Proof.lean ====
/-
  A two-layer graph convolution network on 100000 nodes and 1600000 edges. Both programs append self loops to the
  edge list, count degrees, weight every edge by the inverse square roots of its endpoints' degrees, and apply twice
  "multiply the features by a weight matrix, gather the sources' rows, scale by the edge weights, add into the targets'
  rows, add a bias", with a maximum against zero between the layers. They differ only in the two matrix products: the
  reference forms each on the host in one operation, the kernel in ten blocks of 10000 rows on the matrix unit with its
  operands rounded to a narrow format first. Over the extended reals the rounding is the identity and a product into a
  zero accumulator is the plain sum over the contracted coordinate, so each blockwise product is the host's product,
  and everything else is the same operations on the same values.

  The kernel's and its idealization's runs and unchanged arguments are the generated frames; the reference's run is read
  off its fold of operations; the idealization rewrote nothing, so the fourth claim is trivial.
-/
import proofs.«172964_j75969381531758_1_alg».proof.Defs
import proofs.«172964_j75969381531758_1_alg».proof.Proof.Gen.Kernel
import proofs.«172964_j75969381531758_1_alg».proof.Proof.Gen.Kernel.Frame
import proofs.«172964_j75969381531758_1_alg».proof.Proof.Gen.KernelIdeal
import proofs.«172964_j75969381531758_1_alg».proof.Proof.Gen.KernelIdeal.Frame
import proofs.«172964_j75969381531758_1_alg».proof.Proof.Gen.ReferenceIdeal
import proofs.«172964_j75969381531758_1_alg».proof.Proof.Gen.Pre_finite_inputs
import proofs.«172964_j75969381531758_1_alg».proof.Proof.KernelRun
import proofs.«172964_j75969381531758_1_alg».proof.Proof.KValue
import proofs.«172964_j75969381531758_1_alg».proof.Proof.RValue
import proofs.«172964_j75969381531758_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Out.run (F := Ideal) m ρ)

/-- Both programs end with the network's result of their (equal) arguments. -/
theorem algebraic : Cert.algebraic_KernelIdeal_ReferenceIdeal := by
  intro m ρ m' ρ' _ hagree
  refine ⟨fun c => Cert.KernelIdeal.Out.result m c, ?_, ?_⟩
  · exact (θ_run Cert.KernelIdeal.defs _ _).mono
      (fun _ h c => ⟨(h c).1.trans (Cert.KernelIdeal.Out.at8_result m ρ c), (h c).2⟩)
      (Cert.KernelIdeal.Gen.run_out m ρ)
  · exact (θ_run Cert.ReferenceIdeal.defs _ _).mono
      (fun _ h c => ⟨(h c).1.trans (Bridge.result_eq m m' c (hagree c).1 (hagree c).2.1 (hagree c).2.2.1
        (hagree c).2.2.2.1 (hagree c).2.2.2.2.1 (hagree c).2.2.2.2.2), (h c).2⟩)
      (Cert.ReferenceIdeal.Out.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
